-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000x64 : Shape := ⟨2, ![800000, 64]⟩
abbrev S800000 : Shape := ⟨1, ![800000]⟩
abbrev S64x128 : Shape := ⟨2, ![64, 128]⟩
abbrev S256x128 : Shape := ⟨2, ![256, 128]⟩
abbrev S128 : Shape := ⟨1, ![128]⟩
abbrev S128x128 : Shape := ⟨2, ![128, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S64x128 : S_.BroadcastsInDim S64x128 (![] : Fin 0 → Fin S64x128.rank)
  reducesTo_S64x128_S_d0_1 : S64x128.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg6 : FVec F S128 .f32) (main_arg7 : FVec F S128x128 .f32) (main_arg8 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S50000x128 .f32) (main_arg1 : FVec F S800000x64 .f32) (main_arg2 : IVec S800000 32) (main_arg3 : IVec S800000 32) (main_arg4 : FVec F S64x128 .f32) (main_arg5 : FVec F S256x128 .f32) (main_arg6 : FVec F S128 .f32) (main_arg7 : FVec F S128x128 .f32) (main_arg8 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x64 .f32 := Host.absf main_arg1
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S64x128 .f32 := Host.absf main_arg4
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S256x128 .f32 := Host.absf main_arg5
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg6 main_arg7 main_arg8 main_v13 main_v16
-- ==== Kernel.lean ====
abbrev S50000x128 : Shape := ⟨2, ![50000, 128]⟩
abbrev S800000x64 : Shape := ⟨2, ![800000, 64]⟩
abbrev S800000 : Shape := ⟨1, ![800000]⟩
abbrev S64x128 : Shape := ⟨2, ![64, 128]⟩
abbrev S256x128 : Shape := ⟨2, ![256, 128]⟩
abbrev S128 : Shape := ⟨1, ![128]⟩
abbrev S128x128 : Shape := ⟨2, ![128, 128]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S4000x128 : Shape := ⟨2, ![4000, 128]⟩
abbrev S4000x64 : Shape := ⟨2, ![4000, 64]⟩
abbrev S50000x1 : Shape := ⟨2, ![50000, 1]⟩
abbrev S5000x128 : Shape := ⟨2, ![5000, 128]⟩

abbrev nBuf : Space → Nat
  | .hbm => 40
  | .vmem => 17
  | .smem => 0
  | _ => 0

abbrev bufTy : (tb : Table) → Fin (tcTables nBuf tb) → BufTy
  | .hbm, ⟨0, _⟩ => ⟨S50000x128, .f32⟩
  | .hbm, ⟨1, _⟩ => ⟨S800000x64, .f32⟩
  | .hbm, ⟨2, _⟩ => ⟨S800000, .i32⟩
  | .hbm, ⟨3, _⟩ => ⟨S800000, .i32⟩
  | .hbm, ⟨4, _⟩ => ⟨S64x128, .f32⟩
  | .hbm, ⟨5, _⟩ => ⟨S256x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128x128, .f32⟩
  | .hbm, ⟨11, _⟩ => ⟨S64x128, .f32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S1x128, .f32⟩
  | .hbm, ⟨22, _⟩ => ⟨S800000x128, .f32⟩
  | .hbm, ⟨23, _⟩ => ⟨S_, .f32⟩
  | .hbm, ⟨24, _⟩ => ⟨S50000x128, .f32⟩
  | .hbm, ⟨25, _⟩ => ⟨S800000x1, .i32⟩
  | .hbm, ⟨26, _⟩ => ⟨S50000x128, .f32⟩
  | .hbm, ⟨27, _⟩ => ⟨S_, .f32⟩
  | .hbm, ⟨28, _⟩ => ⟨S800000x1, .f32⟩
  | .hbm, ⟨29, _⟩ => ⟨S_, .f32⟩
  | .hbm, ⟨30, _⟩ => ⟨S50000x1, .f32⟩
  | .hbm, ⟨31, _⟩ => ⟨S800000x1, .i32⟩
  | .hbm, ⟨32, _⟩ => ⟨S50000x1, .f32⟩
  | .hbm, ⟨33, _⟩ => ⟨S_, .f32⟩
  | .hbm, ⟨34, _⟩ => ⟨S50000x1, .f32⟩
  | .hbm, ⟨35, _⟩ => ⟨S50000x1, .f32⟩
  | .hbm, ⟨36, _⟩ => ⟨S50000x128, .f32⟩
  | .hbm, ⟨37, _⟩ => ⟨S50000x128, .f32⟩
  | .hbm, ⟨38, _⟩ => ⟨S1x128, .f32⟩
  | .hbm, ⟨39, _⟩ => ⟨S50000x128, .f32⟩
  | .local _ .vmem, ⟨0, _⟩ => ⟨S4000x128, .f32⟩
  | .local _ .vmem, ⟨1, _⟩ => ⟨S4000x128, .f32⟩
  | .local _ .vmem, ⟨2, _⟩ => ⟨S4000x64, .f32⟩
  | .local _ .vmem, ⟨3, _⟩ => ⟨S4000x64, .f32⟩
  | .local _ .vmem, ⟨4, _⟩ => ⟨S128x128, .f32⟩
  | .local _ .vmem, ⟨5, _⟩ => ⟨S64x128, .f32⟩
  | .local _ .vmem, ⟨6, _⟩ => ⟨S1x128, .f32⟩
  | .local _ .vmem, ⟨7, _⟩ => ⟨S4000x128, .f32⟩
  | .local _ .vmem, ⟨8, _⟩ => ⟨S4000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S1x128, .f32⟩
  | .local _ .vmem, ⟨15, _⟩ => ⟨S5000x128, .f32⟩
  | .local _ .vmem, ⟨16, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_v3 : Ref sig .tc := ⟨.hbm, 13, rfl⟩
abbrev main_v4 : Ref sig .tc := ⟨.hbm, 14, rfl⟩
abbrev main_c_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg4_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem4_1 : DmaSem sig := 16

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S256x128_S128x128_0_0 : S256x128.Slices ![0, 0] S128x128
  slices_S256x128_S128x128_128_0 : S256x128.Slices ![128, 0] S128x128
  bcast_S_S800000 : S_.BroadcastsInDim S800000 (![] : Fin 0 → Fin S800000.rank)
  bcast_S800000_S800000x1_0 : S800000.BroadcastsInDim S800000x1 (![0] : Fin 1 → Fin S800000x1.rank)
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S4000x64_S4000x64_0_0 : ∀ a, (![0, 0] : Fin 2 → Nat) a + S4000x64.size a ≤ S4000x64.size a
  h_S4000x64 : 0 < S4000x64.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  bcast_S_S50000x128 : S_.BroadcastsInDim S50000x128 (![] : Fin 0 → Fin S50000x128.rank)
  bcast_S_S800000x1 : S_.BroadcastsInDim S800000x1 (![] : Fin 0 → Fin S800000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S1x128_S5000x128 : S1x128.Broadcasts S5000x128
  dot_S64x128_S128x128_S64x128_1_0_0_1_n_n_wf : DotDims.WF S64x128 S128x128 S64x128 [1] [0] [0] [1] [] []
  gather_S50000x128_S800000x1_S800000x128_1_0_n_n_0_1_1128_wf : GatherDims.WF S50000x128 S800000x1 S800000x128 [1] [0] [] [0] [] 1 ![1, 128]
  dot_S4000x128_S128x128_S4000x128_1_0_0_1_n_n_wf : DotDims.WF S4000x128 S128x128 S4000x128 [1] [0] [0] [1] [] []
  dot_S4000x64_S64x128_S4000x128_1_0_0_1_n_n_wf : DotDims.WF S4000x64 S64x128 S4000x128 [1] [0] [0] [1] [] []
  scatter_S50000x128_S800000x1_S800000x128_1_0_0_1_wf : ScatterDims.WF S50000x128 S800000x1 S800000x128 [1] [0] [0] 1
  scatter_S50000x1_S800000x1_S800000x1_1_0_0_1_wf : ScatterDims.WF S50000x1 S800000x1 S800000x1 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S800000x128.size a
  hwx0_0 : ∀ i : grid0.Coords, EltTy.bits .f32 = 32 ∨ (Rect.block (s := S800000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x64.size a ≤ S800000x64.size a
  hwx0_1 : ∀ i : grid0.Coords, EltTy.bits .f32 = 32 ∨ (Rect.block (s := S800000x64) S4000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x128.size a ≤ S800000x128.size a
  hwx0_5 : ∀ i : grid0.Coords, EltTy.bits .f32 = 32 ∨ (Rect.block (s := S800000x128) S4000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)

variable [Facts₀]

def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x64_S64x128_S4000x128_1_0_0_1_n_n : DotDims S4000x64 S64x128 S4000x128 where
  lhsContracting := [1]
  rhsContracting := [0]
  lhsNonContracting := [0]
  rhsNonContracting := [1]
  lhsBatch := []
  rhsBatch := []
  wf := dot_S4000x64_S64x128_S4000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v9) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S4000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v23) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v24) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x128 : Shape := ⟨2, ![50000, 128]⟩
abbrev S800000x64 : Shape := ⟨2, ![800000, 64]⟩
abbrev S800000 : Shape := ⟨1, ![800000]⟩
abbrev S64x128 : Shape := ⟨2, ![64, 128]⟩
abbrev S256x128 : Shape := ⟨2, ![256, 128]⟩
abbrev S128 : Shape := ⟨1, ![128]⟩
abbrev S128x128 : Shape := ⟨2, ![128, 128]⟩
abbrev S800000x128 : Shape := ⟨2, ![800000, 128]⟩
abbrev S_ : Shape := ⟨0, ![]⟩
abbrev S800000x1 : Shape := ⟨2, ![800000, 1]⟩
abbrev S1x128 : Shape := ⟨2, ![1, 128]⟩
abbrev S50000x1 : Shape := ⟨2, ![50000, 1]⟩

abbrev nBuf : Space → Nat
  | .hbm => 50
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000x64, .f32⟩
  | .hbm, ⟨2, _⟩ => ⟨S800000, .i32⟩
  | .hbm, ⟨3, _⟩ => ⟨S800000, .i32⟩
  | .hbm, ⟨4, _⟩ => ⟨S64x128, .f32⟩
  | .hbm, ⟨5, _⟩ => ⟨S256x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S800000x128, .f32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x128, .f32⟩
  | .hbm, ⟨19, _⟩ => ⟨S128x128, .f32⟩
  | .hbm, ⟨20, _⟩ => ⟨S800000x128, .f32⟩
  | .hbm, ⟨21, _⟩ => ⟨S128x128, .f32⟩
  | .hbm, ⟨22, _⟩ => ⟨S800000x128, .f32⟩
  | .hbm, ⟨23, _⟩ => ⟨S800000x128, .f32⟩
  | .hbm, ⟨24, _⟩ => ⟨S1x128, .f32⟩
  | .hbm, ⟨25, _⟩ => ⟨S800000x128, .f32⟩
  | .hbm, ⟨26, _⟩ => ⟨S800000x128, .f32⟩
  | .hbm, ⟨27, _⟩ => ⟨S_, .f32⟩
  | .hbm, ⟨28, _⟩ => ⟨S800000x128, .f32⟩
  | .hbm, ⟨29, _⟩ => ⟨S800000x128, .f32⟩
  | .hbm, ⟨30, _⟩ => ⟨S_, .f32⟩
  | .hbm, ⟨31, _⟩ => ⟨S50000x128, .f32⟩
  | .hbm, ⟨32, _⟩ => ⟨S800000x1, .i32⟩
  | .hbm, ⟨33, _⟩ => ⟨S50000x128, .f32⟩
  | .hbm, ⟨34, _⟩ => ⟨S_, .f32⟩
  | .hbm, ⟨35, _⟩ => ⟨S800000x1, .f32⟩
  | .hbm, ⟨36, _⟩ => ⟨S_, .f32⟩
  | .hbm, ⟨37, _⟩ => ⟨S50000x1, .f32⟩
  | .hbm, ⟨38, _⟩ => ⟨S800000x1, .i32⟩
  | .hbm, ⟨39, _⟩ => ⟨S50000x1, .f32⟩
  | .hbm, ⟨40, _⟩ => ⟨S_, .f32⟩
  | .hbm, ⟨41, _⟩ => ⟨S50000x1, .f32⟩
  | .hbm, ⟨42, _⟩ => ⟨S50000x1, .f32⟩
  | .hbm, ⟨43, _⟩ => ⟨S50000x128, .f32⟩
  | .hbm, ⟨44, _⟩ => ⟨S50000x128, .f32⟩
  | .hbm, ⟨45, _⟩ => ⟨S50000x128, .f32⟩
  | .hbm, ⟨46, _⟩ => ⟨S50000x128, .f32⟩
  | .hbm, ⟨47, _⟩ => ⟨S1x128, .f32⟩
  | .hbm, ⟨48, _⟩ => ⟨S50000x128, .f32⟩
  | .hbm, ⟨49, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_call0_cst : Ref sig .tc := ⟨.hbm, 27, rfl⟩
abbrev main_call0_v0 : Ref sig .tc := ⟨.hbm, 28, rfl⟩
abbrev main_v16 : Ref sig .tc := ⟨.hbm, 29, rfl⟩
abbrev main_cst : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_1 : Ref sig .tc := ⟨.hbm, 34, rfl⟩
abbrev main_v20 : Ref sig .tc := ⟨.hbm, 35, rfl⟩
abbrev main_cst_2 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_3 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  slices_S256x128_S128x128_0_0 : S256x128.Slices ![0, 0] S128x128
  slices_S256x128_S128x128_128_0 : S256x128.Slices ![128, 0] S128x128
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  bcast_S_S800000x1 : S_.BroadcastsInDim S800000x1 (![] : Fin 0 → Fin S800000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  bcast_S1x128_S50000x128_0_1 : S1x128.BroadcastsInDim S50000x128 (![0, 1] : Fin 2 → Fin S50000x128.rank)
  dot_S800000x64_S64x128_S800000x128_1_0_0_1_n_n_wf : DotDims.WF S800000x64 S64x128 S800000x128 [1] [0] [0] [1] [] []
  gather_S50000x128_S800000x1_S800000x128_1_0_n_n_0_1_1128_wf : GatherDims.WF S50000x128 S800000x1 S800000x128 [1] [0] [] [0] [] 1 ![1, 128]
  dot_S800000x128_S128x128_S800000x128_1_0_0_1_n_n_wf : DotDims.WF S800000x128 S128x128 S800000x128 [1] [0] [0] [1] [] []
  scatter_S50000x128_S800000x1_S800000x128_1_0_0_1_wf : ScatterDims.WF S50000x128 S800000x1 S800000x128 [1] [0] [0] 1
  scatter_S50000x1_S800000x1_S800000x1_1_0_0_1_wf : ScatterDims.WF S50000x1 S800000x1 S800000x1 [1] [0] [0] 1
  dot_S50000x128_S128x128_S50000x128_1_0_0_1_n_n_wf : DotDims.WF S50000x128 S128x128 S50000x128 [1] [0] [0] [1] [] []

variable [Facts₀]

def dot_S800000x64_S64x128_S800000x128_1_0_0_1_n_n : DotDims S800000x64 S64x128 S800000x128 where
  lhsContracting := [1]
  rhsContracting := [0]
  lhsNonContracting := [0]
  rhsNonContracting := [1]
  lhsBatch := []
  rhsBatch := []
  wf := dot_S800000x64_S64x128_S800000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.HostReads.lean ====
/-
  What the host operations around the two kernel regions compute, read off the contents at each boundary of the run.

  Before region 0: the gathered source rows, the two halves of the stacked weight, the folded edge weight
  (edge weight times the lower half) and the bias laid out as one row — each a term of the launch memory.
  Between the regions: the aggregation `aggr dst M` of an edge array `M` by destination node — the scatter-add of `M`
  divided, row by row, by the larger of the scatter-added count and one — applied to what region 0 left; the
  second bias as one row. The arguments themselves pass through every stretch unchanged.
-/
import proofs.«179803_j11897059410189_1_alg».proof.Proof.KernelRun
import Idealize.ShloMosaic.Lib.StableHlo.Run
import Idealize.ShloMosaic.Lib.Pipeline.Value
import Idealize.ShloMosaic.Lib.ValueIdx

set_option maxRecDepth 16384

noncomputable section

namespace Cert.KernelIdeal.HostReads

open Cert.KernelIdeal Cert.KernelIdeal.Gen Idealize.ShloMosaic Idealize.ShloMosaic.TcCoe Idealize.SL.Sem
open Idealize.ShloMosaic.StableHlo Idealize.ShloMosaic.ValueIdx

variable {F : FTy → Type} [FloatOps F]

/-- The source-node index vector as the gather takes it: a negative index wrapped once by the node count, laid out as a column. -/
def srcIdx (src : IVec S800000 32) : IVec S800000x1 32 :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- The aggregation by destination node: the scatter-add of the edge array into zeros, divided by the broadcast of
    max(scatter-added count, 1). -/
def aggr (dst : IVec S800000 32) (M : FVec F S800000x128 .f32) : FVec F S50000x128 .f32 :=
  Host.divf
    (Host.scatterAdd scatter_S50000x128_S800000x1_S800000x128_1_0_0_1
      (broadcastInDim S50000x128 ![] bcast_S_S50000x128 (constant S_ .f32 0x00000000#32))
      (broadcastInDim S800000x1 ![0] bcast_S800000_S800000x1_0 dst) M)
    (broadcastInDim S50000x128 ![0, 1] bcast_S50000x1_S50000x128_0_1
      (maximumf
        (Host.scatterAdd scatter_S50000x1_S800000x1_S800000x1_1_0_0_1
          (broadcastInDim S50000x1 ![] bcast_S_S50000x1 (constant S_ .f32 0x00000000#32))
          (broadcastInDim S800000x1 ![0] bcast_S800000_S800000x1_0 dst)
          (broadcastInDim S800000x1 ![] bcast_S_S800000x1 (constant S_ .f32 0x3F800000#32)))
        (broadcastInDim S50000x1 ![] bcast_S_S50000x1 (constant S_ .f32 0x3F800000#32))))

variable (m : (ℓ : Loc nD τ sig) → Buf (Elt F) ℓ) (ρ : Dev nD → PrngReg)

/-! ## Region 0's entry contents -/

theorem entry0_src (c : Dev nD) :
    V1 m ρ c main_v9 = Host.gather gather_S50000x128_S800000x1_S800000x128_1_0_n_n_0_1_1128
      (m ((c : Thread nD τ).loc main_arg0)) (srcIdx (m ((c : Thread nD τ).loc main_arg2))) := by
  show StableHlo.after hostOps0 (W0 m ρ c) (Proc.devRef .tc main_v9) = _
  after_results <;> rfl

theorem entry0_feat (c : Dev nD) : V1 m ρ c main_arg1 = m ((c : Thread nD τ).loc main_arg1) := by
  show StableHlo.after hostOps0 (W0 m ρ c) (Proc.devRef .tc main_arg1) = _
  after_results <;> rfl

theorem entry0_upper (c : Dev nD) :
    V1 m ρ c main_v0 = extractStridedSlice S128x128 ![0, 0] (m ((c : Thread nD τ).loc main_arg5)) slices_S256x128_S128x128_0_0 := by
  show StableHlo.after hostOps0 (W0 m ρ c) (Proc.devRef .tc main_v0) = _
  after_results <;> rfl

theorem entry0_folded (c : Dev nD) :
    V1 m ρ c main_v2 = Host.dotGeneral dot_S64x128_S128x128_S64x128_1_0_0_1_n_n none (m ((c : Thread nD τ).loc main_arg4))
      (extractStridedSlice S128x128 ![128, 0] (m ((c : Thread nD τ).loc main_arg5)) slices_S256x128_S128x128_128_0) := by
  show StableHlo.after hostOps0 (W0 m ρ c) (Proc.devRef .tc main_v2) = _
  after_results <;> rfl

theorem entry0_bias (c : Dev nD) :
    V1 m ρ c main_v10 = shapeCast S1x128 (m ((c : Thread nD τ).loc main_arg6)) shapeCasts_S128_S1x128 := by
  show StableHlo.after hostOps0 (W0 m ρ c) (Proc.devRef .tc main_v10) = _
  after_results <;> rfl

/-! ## Region 1's entry contents -/

/-- An argument no window of region 0 stages, read at region 0's exit, is as launched. -/
theorem exit0_dst (c : Dev nD) : W2 m ρ c (Proc.devRef .tc main_arg3) = m ((c : Thread nD τ).loc main_arg3) := by
  rw [W2_of_ne m ρ c main_arg3 (by decide)]
  show StableHlo.after hostOps0 (W0 m ρ c) (Proc.devRef .tc main_arg3) = _
  after_results <;> rfl
theorem exit0_bias (c : Dev nD) : W2 m ρ c (Proc.devRef .tc main_arg8) = m ((c : Thread nD τ).loc main_arg8) := by
  rw [W2_of_ne m ρ c main_arg8 (by decide)]
  show StableHlo.after hostOps0 (W0 m ρ c) (Proc.devRef .tc main_arg8) = _
  after_results <;> rfl
theorem exit0_nodes (c : Dev nD) : W2 m ρ c (Proc.devRef .tc main_arg0) = m ((c : Thread nD τ).loc main_arg0) := by
  rw [W2_of_ne m ρ c main_arg0 (by decide)]
  show StableHlo.after hostOps0 (W0 m ρ c) (Proc.devRef .tc main_arg0) = _
  after_results <;> rfl
theorem exit0_self (c : Dev nD) : W2 m ρ c (Proc.devRef .tc main_arg7) = m ((c : Thread nD τ).loc main_arg7) := by
  rw [W2_of_ne m ρ c main_arg7 (by decide)]
  show StableHlo.after hostOps0 (W0 m ρ c) (Proc.devRef .tc main_arg7) = _
  after_results <;> rfl

theorem entry1_nodes (c : Dev nD) : V3 m ρ c main_arg0 = m ((c : Thread nD τ).loc main_arg0) := by
  show StableHlo.after hostOps1 (W2 m ρ c) (Proc.devRef .tc main_arg0) = _
  after_results
  exact exit0_nodes m ρ c

theorem entry1_self (c : Dev nD) : V3 m ρ c main_arg7 = m ((c : Thread nD τ).loc main_arg7) := by
  show StableHlo.after hostOps1 (W2 m ρ c) (Proc.devRef .tc main_arg7) = _
  after_results
  exact exit0_self m ρ c

theorem entry1_bias (c : Dev nD) :
    V3 m ρ c main_v23 = shapeCast S1x128 (m ((c : Thread nD τ).loc main_arg8)) shapeCasts_S128_S1x128 := by
  show StableHlo.after hostOps1 (W2 m ρ c) (Proc.devRef .tc main_v23) = _
  after_results
  rw [exit0_bias m ρ c]
  rfl

/-- The neighbourhood operand of region 1 is the aggregation of what region 0 left in its output array. -/
theorem entry1_neigh (c : Dev nD) :
    V3 m ρ c main_v22 = aggr (m ((c : Thread nD τ).loc main_arg3)) ((dat0 (V1 m ρ) c).arrAt 5 cfg0.N) := by
  show StableHlo.after hostOps1 (W2 m ρ c) (Proc.devRef .tc main_v22) = _
  after_results
  rw [exit0_dst m ρ c, show W2 m ρ c (Proc.devRef .tc main_v11) = (dat0 (V1 m ρ) c).arrAt 5 cfg0.N from W2_arr m ρ c 5]
  rfl

end Cert.KernelIdeal.HostReads

end
-- ==== Proof.Spec.lean ====
/-
  The two per-block computations of the kernel, written as whole-array functions on the extended reals,
  index by index, over literal shapes.

  `edgeMsg`: the message of edge `e` in feature column `l`,
      max ( (Σ_d h[e,d]·A[d,l] + Σ_k f[e,k]·B[k,l]) + b[0,l] , 0 ),
  `h` the gathered source-node rows, `f` the edge features, `A` and `B` the two weight matrices and `b` the
  bias laid out as one row.

  `nodeOut`: the output of node `n` in column `l`,
      (g[n,l] + Σ_d x[n,d]·W[d,l]) + b[0,l],
  `g` the aggregated neighbourhood, `x` the node features, `W` the self weight and `b` the bias row.

  The grouping of the additions is the one both programs use; nothing here needs finiteness.
-/
import Idealize.ShloMosaic.PureOps.Ideal
import Idealize.ShloMosaic.Lib.ValueIdx

noncomputable section

namespace Cert.Spec

open Idealize.ShloMosaic Idealize.ShloMosaic.ValueIdx

abbrev SE128 : Shape := ⟨2, ![800000, 128]⟩
abbrev SE64 : Shape := ⟨2, ![800000, 64]⟩
abbrev SN128 : Shape := ⟨2, ![50000, 128]⟩
abbrev SW : Shape := ⟨2, ![128, 128]⟩
abbrev SWe : Shape := ⟨2, ![64, 128]⟩
abbrev SRow : Shape := ⟨2, ![1, 128]⟩

/-- The per-edge message: both matrix products as sums over the contracted coordinate, the bias row added, the
    result clipped below at zero. -/
def edgeMsg (h : SE128.Idx → EReal) (f : SE64.Idx → EReal) (A : SW.Idx → EReal) (B : SWe.Idx → EReal)
    (b : SRow.Idx → EReal) : SE128.Idx → EReal :=
  fun i => max ((∑ d : Fin 128, h (ix2 (n0 := 800000) (n1 := 128) (i 0) d) * A (ix2 (n0 := 128) (n1 := 128) d (i 1))
      + ∑ k : Fin 64, f (ix2 (n0 := 800000) (n1 := 64) (i 0) k) * B (ix2 (n0 := 64) (n1 := 128) k (i 1)))
      + b (ix2 (n0 := 1) (n1 := 128) 0 (i 1))) 0

/-- The per-node output: the aggregated neighbourhood plus the node's own transform plus the bias row. -/
def nodeOut (x g : SN128.Idx → EReal) (W : SW.Idx → EReal) (b : SRow.Idx → EReal) : SN128.Idx → EReal :=
  fun i => (g i + ∑ d : Fin 128, x (ix2 (n0 := 50000) (n1 := 128) (i 0) d) * W (ix2 (n0 := 128) (n1 := 128) d (i 1)))
      + b (ix2 (n0 := 1) (n1 := 128) 0 (i 1))

theorem edgeMsg_apply (h : SE128.Idx → EReal) (f : SE64.Idx → EReal) (A : SW.Idx → EReal) (B : SWe.Idx → EReal)
    (b : SRow.Idx → EReal) (e : Fin 800000) (l : Fin 128) :
    edgeMsg h f A B b (ix2 e l) = max ((∑ d : Fin 128, h (ix2 e d) * A (ix2 d l)
      + ∑ k : Fin 64, f (ix2 e k) * B (ix2 k l)) + b (ix2 0 l)) 0 := rfl

theorem nodeOut_apply (x g : SN128.Idx → EReal) (W : SW.Idx → EReal) (b : SRow.Idx → EReal) (n : Fin 50000) (l : Fin 128) :
    nodeOut x g W b (ix2 n l) = (g (ix2 n l) + ∑ d : Fin 128, x (ix2 n d) * W (ix2 d l)) + b (ix2 0 l) := rfl

end Cert.Spec

end
-- ==== Proof.EdgeRegion.lean ====
/-
  The first grid computation, read as one whole-array function.

  Point t of the grid (t = 0 … 199) works on edges 4000·t … 4000·t + 3999: it reads those 4000 rows of the
  gathered source-node rows h ([800000,128]) and of the edge features f ([800000,64]), the two weight matrices
  A ([128,128]) and B ([64,128]) whole, and the bias row b ([1,128]) whole, and writes rows 4000·t … 4000·t + 3999
  of the output with
        max ( (Σ_d h[e,d]·A[d,l] + Σ_k f[e,k]·B[k,l]) + b[0,l] , 0 ).
  Entry (e,l) of the output depends on row e of h and of f only, so every block written is the restriction of the one
  function `Cert.Spec.edgeMsg` to the block's rows; since 200 · 4000 = 800000 the blocks cover every row, and the array
  ends holding that function.  On the extended reals a change of number format is the identity and a matrix product
  accumulated into zero is the plain sum over the contracted coordinate; no algebraic law beyond 0 + x = x is used.
-/
import proofs.«179803_j11897059410189_1_alg».proof.Proof.Gen.KernelIdeal.Frame
import proofs.«179803_j11897059410189_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.EdgeRegion

open Cert.KernelIdeal Cert.KernelIdeal.Gen Idealize.ShloMosaic Idealize.ShloMosaic.TcCoe Idealize.SL.Sem
open Idealize.ShloMosaic.Pipeline (Dat)
open Idealize.ShloMosaic.ValueIdx

/-! ## The two matrix products at an index

Each product contracts the second axis of its left operand with the first axis of its right operand: on the
left operand's index the first coordinate is the output's row and the second the contracted coordinate; on the right
operand's index the first is the contracted coordinate and the second the output's column. -/

theorem lhs_nodeW_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem lhs_nodeW_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
theorem rhs_nodeW_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
theorem rhs_nodeW_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

theorem lhs_edgeW_0 (i : S4000x128.Idx) (q : dot_S4000x64_S64x128_S4000x128_1_0_0_1_n_n.contr.Idx) :
    (dot_S4000x64_S64x128_S4000x128_1_0_0_1_n_n.lhsIdx i q 0).val = (i 0).val := by
  unfold DotDims.lhsIdx
  rw [dif_neg (show ¬(0 : Fin S4000x64.rank) ∈ dot_S4000x64_S64x128_S4000x128_1_0_0_1_n_n.lhsBatch by decide), dif_pos (show (0 : Fin S4000x64.rank) ∈ dot_S4000x64_S64x128_S4000x128_1_0_0_1_n_n.lhsNonContracting by decide)]
  rfl
theorem lhs_edgeW_1 (i : S4000x128.Idx) (q : dot_S4000x64_S64x128_S4000x128_1_0_0_1_n_n.contr.Idx) :
    (dot_S4000x64_S64x128_S4000x128_1_0_0_1_n_n.lhsIdx i q 1).val = (q ⟨0, by decide⟩).val :=
  dot_S4000x64_S64x128_S4000x128_1_0_0_1_n_n.lhsIdx_val_of_single rfl i q
theorem rhs_edgeW_0 (i : S4000x128.Idx) (q : dot_S4000x64_S64x128_S4000x128_1_0_0_1_n_n.contr.Idx) :
    (dot_S4000x64_S64x128_S4000x128_1_0_0_1_n_n.rhsIdx i q 0).val = (q ⟨0, by decide⟩).val :=
  dot_S4000x64_S64x128_S4000x128_1_0_0_1_n_n.rhsIdx_val_of_single rfl i q
theorem rhs_edgeW_1 (i : S4000x128.Idx) (q : dot_S4000x64_S64x128_S4000x128_1_0_0_1_n_n.contr.Idx) :
    (dot_S4000x64_S64x128_S4000x128_1_0_0_1_n_n.rhsIdx i q 1).val = (i 1).val := by
  unfold DotDims.rhsIdx
  rw [dif_neg (show ¬(1 : Fin S64x128.rank) ∈ dot_S4000x64_S64x128_S4000x128_1_0_0_1_n_n.rhsBatch by decide), dif_pos (show (1 : Fin S64x128.rank) ∈ dot_S4000x64_S64x128_S4000x128_1_0_0_1_n_n.rhsNonContracting by decide)]
  rfl

/-- The product of a block of node rows with the [128,128] weight, accumulated into zero: entry (p,q) is the sum over the 128 contracted coordinates. -/
theorem matmul_nodeW_apply (x : FVec Ideal S4000x128 .bf16) (w : FVec Ideal S128x128 .bf16) (p : Fin 4000) (q : Fin 128) :
    matmul dot_S4000x128_S128x128_S4000x128_1_0_0_1_n_n none x w (constant (F := Ideal) S4000x128 .f32 0x00000000#32) (ix2 p q)
      = ∑ d : Fin 128, x (ix2 p d) * w (ix2 d q) := by
  refine (Ideal.matmul_constant_zero_apply dot_S4000x128_S128x128_S4000x128_1_0_0_1_n_n none x w (ix2 p q)).trans ?_
  rw [← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 p q) ((contrEquiv1 dot_S4000x128_S128x128_S4000x128_1_0_0_1_n_n 128 rfl rfl).symm k) = ix2 p k := funext fun a => Fin.ext (by
    match a with
    | ⟨0, _⟩ => exact lhs_nodeW_0 _ _
    | ⟨1, _⟩ => exact (lhs_nodeW_1 _ _).trans hk)
  have er : dot_S4000x128_S128x128_S4000x128_1_0_0_1_n_n.rhsIdx (ix2 p q) ((contrEquiv1 dot_S4000x128_S128x128_S4000x128_1_0_0_1_n_n 128 rfl rfl).symm k) = ix2 k q := funext fun a => Fin.ext (by
    match a with
    | ⟨0, _⟩ => exact (rhs_nodeW_0 _ _).trans hk
    | ⟨1, _⟩ => exact rhs_nodeW_1 _ _)
  rw [el, er]

/-- The product of a block of edge features with the [64,128] weight, accumulated into zero: entry (p,q) is the sum over the 64 contracted coordinates. -/
theorem matmul_edgeW_apply (x : FVec Ideal S4000x64 .bf16) (w : FVec Ideal S64x128 .bf16) (p : Fin 4000) (q : Fin 128) :
    matmul dot_S4000x64_S64x128_S4000x128_1_0_0_1_n_n none x w (constant (F := Ideal) S4000x128 .f32 0x00000000#32) (ix2 p q)
      = ∑ d : Fin 64, x (ix2 p d) * w (ix2 d q) := by
  refine (Ideal.matmul_constant_zero_apply dot_S4000x64_S64x128_S4000x128_1_0_0_1_n_n none x w (ix2 p q)).trans ?_
  rw [← Equiv.sum_comp (contrEquiv1 dot_S4000x64_S64x128_S4000x128_1_0_0_1_n_n 64 rfl rfl).symm]
  refine Finset.sum_congr rfl fun k _ => ?_
  have hk := contrEquiv1_symm_val dot_S4000x64_S64x128_S4000x128_1_0_0_1_n_n 64 rfl rfl k
  have el : dot_S4000x64_S64x128_S4000x128_1_0_0_1_n_n.lhsIdx (ix2 p q) ((contrEquiv1 dot_S4000x64_S64x128_S4000x128_1_0_0_1_n_n 64 rfl rfl).symm k) = ix2 p k := funext fun a => Fin.ext (by
    match a with
    | ⟨0, _⟩ => exact lhs_edgeW_0 _ _
    | ⟨1, _⟩ => exact (lhs_edgeW_1 _ _).trans hk)
  have er : dot_S4000x64_S64x128_S4000x128_1_0_0_1_n_n.rhsIdx (ix2 p q) ((contrEquiv1 dot_S4000x64_S64x128_S4000x128_1_0_0_1_n_n 64 rfl rfl).symm k) = ix2 k q := funext fun a => Fin.ext (by
    match a with
    | ⟨0, _⟩ => exact (rhs_edgeW_0 _ _).trans hk
    | ⟨1, _⟩ => exact rhs_edgeW_1 _ _)
  rw [el, er]

/-! ## The block computation at an index -/

/-- Entry (p,q) of what the body computes from its five loaded blocks: both products, the bias row added to every
    row, the result clipped below at zero. -/
theorem pay_apply (x0 : Vec Ideal S4000x128 .f32) (x1 : Vec Ideal S4000x64 .f32) (x2 : Vec Ideal S128x128 .f32)
    (x3 : Vec Ideal S64x128 .f32) (x4 : Vec Ideal S1x128 .f32) (p : Fin 4000) (q : Fin 128) :
    k0_pay1 (F := Ideal) x0 x1 x2 x3 x4 (ix2 p q)
      = max ((∑ d : Fin 128, x0 (ix2 p d) * x2 (ix2 d q) + ∑ k : Fin 64, x1 (ix2 p k) * x3 (ix2 k q)) + x4 (ix2 0 q)) 0 := by
  unfold k0_pay1
  simp only [shapeCast_self]
  refine (maximumf_apply _ _ (ix2 p q)).trans ?_
  refine congrArg₂ max ?_ Ideal.ofBits_zero_f32
  refine (addf_apply _ _ (ix2 p q)).trans ?_
  refine congrArg₂ (· + ·) ?_ (broadcastTo_1b_ab_apply x4 broadcasts_S1x128_S4000x128 p q)
  refine (addf_apply _ _ (ix2 p q)).trans ?_
  exact congrArg₂ (· + ·)
    (matmul_nodeW_apply (truncf .bf16 x0 bitsLt_bf16_f32) (truncf .bf16 x2 bitsLt_bf16_f32) p q)
    (matmul_edgeW_apply (truncf .bf16 x1 bitsLt_bf16_f32) (truncf .bf16 x3 bitsLt_bf16_f32) p q)

/-! ## The blocks of the inputs and of the output -/

variable (V : (c : Dev nD) → (b : Ref sig .tc) → Buf (Elt Ideal) ((c : Thread nD τ).loc b))

theorem zero_offsets : (![0, 0] : Fin 2 → Nat) = fun _ => 0 := funext fun a => by fin_cases a <;> rfl

/-- The block index of every window at every point of the grid: the two edge-indexed inputs and the output move
    down the rows with the point (block row = the point, block column 0); the weights and the bias row stay at their
    one block. Decided over the 200 points. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row p of the block of point t is edge 4000·t + p. -/
def edgeOf (t : Fin cfg0.N) (p : Fin 4000) : Fin 800000 :=
  ⟨4000 * t.val + p.val, by
    have ht : t.val < grid0.N := t.isLt
    have hN : grid0.N = 200 := N_0
    have hp : p.val < 4000 := p.isLt
    omega⟩

theorem edgeOf_val (t : Fin cfg0.N) (p : Fin 4000) : (edgeOf t p).val = 4000 * t.val + p.val := rfl

/-- The block of node rows at point t: its row p is row 4000·t + p of the gathered rows. -/
theorem blk_h_apply (c : Dev nD) (t : Fin cfg0.N) (p : Fin 4000) (d : Fin 128) :
    (iblk0 V c 0 t : Vec Ideal S4000x128 .f32) (ix2 p d) = (V c main_v9 : S800000x128.Idx → EReal) (ix2 (edgeOf t p) d) := by
  obtain ⟨e0, e1, -⟩ := block_index t
  unfold iblk0
  rw [View.read_apply]
  show V c main_v9 _ = V c main_v9 _
  congr 1
  funext a
  apply Fin.ext
  match a with
  | ⟨0, _⟩ => show win0_0.index t (0 : Fin 2) * 4000 + 1 * p.val = 4000 * t.val + p.val; rw [e0]; omega
  | ⟨1, _⟩ => show win0_0.index t (1 : Fin 2) * 128 + 1 * d.val = d.val; rw [e1]; omega

/-- The block of edge features at point t: its row p is row 4000·t + p of the edge features. -/
theorem blk_f_apply (c : Dev nD) (t : Fin cfg0.N) (p : Fin 4000) (k : Fin 64) :
    (iblk0 V c 1 t : Vec Ideal S4000x64 .f32) (ix2 p k) = (V c main_arg1 : S800000x64.Idx → EReal) (ix2 (edgeOf t p) k) := by
  obtain ⟨-, -, e0, e1, -⟩ := block_index t
  unfold iblk0
  rw [View.read_apply]
  show V c main_arg1 _ = V c main_arg1 _
  congr 1
  funext a
  apply Fin.ext
  match a with
  | ⟨0, _⟩ => show win0_1.index t (0 : Fin 2) * 4000 + 1 * p.val = 4000 * t.val + p.val; rw [e0]; omega
  | ⟨1, _⟩ => show win0_1.index t (1 : Fin 2) * 64 + 1 * k.val = k.val; rw [e1]; omega

/-- The [128,128] weight's one block is the whole matrix. -/
theorem blk_A_apply (c : Dev nD) (t : Fin cfg0.N) (d : Fin 128) (q : Fin 128) :
    (iblk0 V c 2 t : Vec Ideal S128x128 .f32) (ix2 d q) = (V c main_v0 : S128x128.Idx → EReal) (ix2 d q) := by
  obtain ⟨-, -, -, -, e0, e1, -⟩ := block_index t
  unfold iblk0
  rw [View.read_apply]
  show V c main_v0 _ = V c main_v0 _
  congr 1
  funext a
  apply Fin.ext
  match a with
  | ⟨0, _⟩ => show win0_2.index t (0 : Fin 2) * 128 + 1 * d.val = d.val; rw [e0]; omega
  | ⟨1, _⟩ => show win0_2.index t (1 : Fin 2) * 128 + 1 * q.val = q.val; rw [e1]; omega

/-- The [64,128] weight's one block is the whole matrix. -/
theorem blk_B_apply (c : Dev nD) (t : Fin cfg0.N) (k : Fin 64) (q : Fin 128) :
    (iblk0 V c 3 t : Vec Ideal S64x128 .f32) (ix2 k q) = (V c main_v2 : S64x128.Idx → EReal) (ix2 k q) := by
  obtain ⟨-, -, -, -, -, -, e0, e1, -⟩ := block_index t
  unfold iblk0
  rw [View.read_apply]
  show V c main_v2 _ = V c main_v2 _
  congr 1
  funext a
  apply Fin.ext
  match a with
  | ⟨0, _⟩ => show win0_3.index t (0 : Fin 2) * 64 + 1 * k.val = k.val; rw [e0]; omega
  | ⟨1, _⟩ => show win0_3.index t (1 : Fin 2) * 128 + 1 * q.val = q.val; rw [e1]; omega

/-- The bias row's one block is the whole row. -/
theorem blk_b_apply (c : Dev nD) (t : Fin cfg0.N) (z : Fin 1) (q : Fin 128) :
    (iblk0 V c 4 t : Vec Ideal S1x128 .f32) (ix2 z q) = (V c main_v10 : S1x128.Idx → EReal) (ix2 z q) := by
  obtain ⟨-, -, -, -, -, -, -, -, e0, e1, -⟩ := block_index t
  unfold iblk0
  rw [View.read_apply]
  show V c main_v10 _ = V c main_v10 _
  congr 1
  funext a
  apply Fin.ext
  match a with
  | ⟨0, _⟩ => show win0_4.index t (0 : Fin 2) * 1 + 1 * z.val = z.val; rw [e0]; omega
  | ⟨1, _⟩ => show win0_4.index t (1 : Fin 2) * 128 + 1 * q.val = q.val; rw [e1]; omega

/-- Where entry (p,q) of the output's block at point t sits in the output array: row 4000·t + p, column q. -/
theorem out_emb (t : Fin cfg0.N) (p : Fin 4000) (q : Fin 128) :
    ((cfg0.win 5).blk t).view.emb (ix2 p q) = (ix2 (edgeOf t p) q : S800000x128.Idx) := by
  obtain ⟨-, -, -, -, -, -, -, -, -, -, e0, e1⟩ := block_index t
  funext a
  apply Fin.ext
  match a with
  | ⟨0, _⟩ => show win0_5.index t (0 : Fin 2) * 4000 + 1 * p.val = 4000 * t.val + p.val; rw [e0]; omega
  | ⟨1, _⟩ => show win0_5.index t (1 : Fin 2) * 128 + 1 * q.val = q.val; rw [e1]; omega

/-! ## What a point writes back, the cover, and the array -/

/-- Two [4000,128] blocks that agree at every (row, column) are equal. -/
theorem block_ext (X Y : Vec Ideal S4000x128 .f32) (h : ∀ (p : Fin 4000) (q : Fin 128), X (ix2 p q) = Y (ix2 p q)) : X = Y :=
  funext fun j => by rw [eq_ix2 j]; exact h _ _

/-- Entry (p,q) of what the body computes from blocks that are rows 4000·t … 4000·t + 3999 of `h` and `f` and the whole
    of `A`, `B`, `b` is the edge message of edge 4000·t + p in column q. -/
theorem pay_eq_edgeMsg (x0 : Vec Ideal S4000x128 .f32) (x1 : Vec Ideal S4000x64 .f32) (x2 : Vec Ideal S128x128 .f32)
    (x3 : Vec Ideal S64x128 .f32) (x4 : Vec Ideal S1x128 .f32)
    (h : S800000x128.Idx → EReal) (f : S800000x64.Idx → EReal) (A : S128x128.Idx → EReal) (B : S64x128.Idx → EReal)
    (b : S1x128.Idx → EReal) (e : Fin 800000) (p : Fin 4000) (q : Fin 128)
    (h0 : ∀ d : Fin 128, x0 (ix2 p d) = h (ix2 e d)) (h1 : ∀ k : Fin 64, x1 (ix2 p k) = f (ix2 e k))
    (h2 : ∀ d : Fin 128, x2 (ix2 d q) = A (ix2 d q)) (h3 : ∀ k : Fin 64, x3 (ix2 k q) = B (ix2 k q))
    (h4 : x4 (ix2 0 q) = b (ix2 0 q)) :
    k0_pay1 (F := Ideal) x0 x1 x2 x3 x4 (ix2 p q) = Cert.Spec.edgeMsg h f A B b (ix2 e q) := by
  rw [pay_apply, Cert.Spec.edgeMsg_apply, h4]
  simp only [h0, h1, h2, h3]

/-- Point t writes back rows 4000·t … 4000·t + 3999 of the edge message of the arrays the computation finds. -/
theorem flushed_eq (c : Dev nD) (t : Fin cfg0.N) :
    (dat0 (F := Ideal) V c).flushed 5 t
      = ((cfg0.win 5).blk t).view.read (Elt Ideal)
          (Cert.Spec.edgeMsg (V c main_v9) (V c main_arg1) (V c main_v0) (V c main_v2) (V c main_v10)) := by
  show (cfg0.win 5).cut (grid0.coords t) ((dat0 V c).after 5 t) = _
  rw [after0_5]
  unfold out0_5
  rw [View.canon_unit_zero zero_offsets]
  simp only [View.ld_unit_zero (S := S4000x128) zero_offsets, View.ld_unit_zero (S := S4000x64) zero_offsets,
    View.ld_unit_zero (S := S128x128) zero_offsets, View.ld_unit_zero (S := S64x128) zero_offsets,
    View.ld_unit_zero (S := S1x128) zero_offsets]
  refine block_ext _ _ fun p q => ?_
  show k0_pay1 (F := Ideal) (iblk0 V c 0 t) (iblk0 V c 1 t) (iblk0 V c 2 t) (iblk0 V c 3 t) (iblk0 V c 4 t) (ix2 p q)
    = Cert.Spec.edgeMsg (V c main_v9) (V c main_arg1) (V c main_v0) (V c main_v2) (V c main_v10)
        (((cfg0.win 5).blk t).view.emb (ix2 p q))
  rw [out_emb t p q]
  exact pay_eq_edgeMsg (iblk0 V c 0 t) (iblk0 V c 1 t) (iblk0 V c 2 t) (iblk0 V c 3 t) (iblk0 V c 4 t)
    (V c main_v9) (V c main_arg1) (V c main_v0) (V c main_v2) (V c main_v10) (edgeOf t p) p q
    (fun d => blk_h_apply V c t p d) (fun k => blk_f_apply V c t p k)
    (fun d => blk_A_apply V c t d q) (fun k => blk_B_apply V c t k q) (blk_b_apply V c t 0 q)

/-- An index of the output array is in point t's block iff each coordinate is in the block's range on its axis. -/
theorem mem_blk (t : Fin cfg0.N) (i : S800000x128.Idx) :
    i ∈ ((cfg0.win 5).blk t).view.set ↔ ∀ a : Fin 2, win0_5.index t a * S4000x128.size a ≤ (i a).val
      ∧ (i a).val < win0_5.index t a * S4000x128.size a + S4000x128.size a := by
  show i ∈ ((View.whole main_v11).slice (win0_5.rect t)).set ↔ _
  rw [View.set_slice_whole, Rect.mem_set_unit]
  exact Iff.rfl

/-- Every index of the output array is written by some point: row r by point r / 4000 (200 · 4000 = 800000). -/
theorem cover (i : S800000x128.Idx) :
    ∃ t : Fin cfg0.N, (cfg0.win 5).flush t = true ∧ i ∈ ((cfg0.win 5).blk t).view.set := by
  have hi0 : (i 0).val < 800000 := (i 0).isLt
  have hi1 : (i 1).val < 128 := (i 1).isLt
  have hN : grid0.N = 200 := N_0
  obtain ⟨t, ht⟩ : ∃ t : Fin cfg0.N, t.val = (i 0).val / 4000 :=
    ⟨⟨(i 0).val / 4000, by show (i 0).val / 4000 < grid0.N; rw [hN]; omega⟩, rfl⟩
  obtain ⟨-, -, -, -, -, -, -, -, -, -, e0, e1⟩ := block_index t
  refine ⟨t, flush0_5 t, ?_⟩
  rw [mem_blk]
  intro a
  match a with
  | ⟨0, _⟩ =>
    show win0_5.index t (0 : Fin 2) * 4000 ≤ (i 0).val ∧ (i 0).val < win0_5.index t (0 : Fin 2) * 4000 + 4000
    rw [e0, ht]; omega
  | ⟨1, _⟩ =>
    show win0_5.index t (1 : Fin 2) * 128 ≤ (i 1).val ∧ (i 1).val < win0_5.index t (1 : Fin 2) * 128 + 128
    rw [e1]; omega

/-- The output array after the whole grid is the edge message of the arrays the computation finds. -/
theorem arr_edge (c : Dev nD) :
    (dat0 (F := Ideal) V c).arrAt 5 cfg0.N
      = Cert.Spec.edgeMsg (V c main_v9) (V c main_arg1) (V c main_v0) (V c main_v2) (V c main_v10) :=
  (dat0 (F := Ideal) V c).arrAt_eq_of_cover 5
    (Cert.Spec.edgeMsg (V c main_v9) (V c main_arg1) (V c main_v0) (V c main_v2) (V c main_v10))
    (fun t _ => flushed_eq V c t) cover

end Cert.KernelIdeal.EdgeRegion

end
-- ==== Proof.NodeRegion.lean ====
/-
  What the node-combine region leaves in its output array, as one function of the arrays it finds.

  The region runs over 10 blocks of 5000 node rows. At block `t` the body reads rows 5000·t … 5000·t + 4999 of the node
  features `x` and of the aggregated neighbourhood `g`, the whole self weight `W` and the whole bias row `b`, and stores
      (g[n,l] + Σ_d x[n,d]·W[d,l]) + b[0,l]
  at each row `n` of the block and each column `l`: the format changes are the identity on extended reals and a product
  into a zero accumulator is the plain sum over the contracted coordinate. Entry (n, l) of the output depends on row `n`
  of `x`, entry (n, l) of `g`, column `l` of `W` and entry (0, l) of `b`. Row `n` lies in block `n / 5000`, and
  10 · 5000 = 50000, so the blocks tile the array and the array ends at `Cert.Spec.nodeOut` of the four arrays.
-/
import proofs.«179803_j11897059410189_1_alg».proof.Proof.Gen.KernelIdeal.Frame
import proofs.«179803_j11897059410189_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.NodeRegion

open Cert.KernelIdeal Cert.KernelIdeal.Gen Idealize.ShloMosaic Idealize.ShloMosaic.TcCoe Idealize.SL.Sem
open Idealize.ShloMosaic.Pipeline (Dat)
open Idealize.ShloMosaic.ValueIdx

/-! ## The body's value at an index -/

/-- The two zero offsets, however spelt. -/
theorem hz : (![0, 0] : Fin 2 → Nat) = fun _ => 0 := funext fun a => by fin_cases a <;> rfl

/-- The product's left operand is read at the output's row … -/
theorem lhs_node_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … and at the contracted coordinate; -/
theorem lhs_node_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- the right operand at the contracted coordinate … -/
theorem rhs_node_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- … and at the output's column. -/
theorem rhs_node_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block's product into the zero accumulator, at row `p` and column `q`: the sum over the contracted coordinate
    `d` of the left operand at (p, d) times the right at (d, q). -/
theorem prod_apply (lhs : FVec Ideal S5000x128 .bf16) (rhs : FVec Ideal S128x128 .bf16) (p : Fin 5000) (q : Fin 128) :
    matmul dot_S5000x128_S128x128_S5000x128_1_0_0_1_n_n none lhs rhs (constant (F := Ideal) S5000x128 .f32 0x00000000#32) (ix2 p q)
      = ∑ d : Fin 128, lhs (ix2 p d) * rhs (ix2 d q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_node_0 _ _
    | ⟨1, _⟩ => exact (lhs_node_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_node_0 _ _).trans hk
    | ⟨1, _⟩ => exact rhs_node_1 _ _)
  rw [el, er]

/-- The bias row spread over the block's rows reads the row at the column. -/
theorem bias_apply (b : Vec Ideal S1x128 .f32) (p : Fin 5000) (q : Fin 128) :
    broadcastTo S5000x128 b broadcasts_S1x128_S5000x128 (ix2 p q) = b (ix2 0 q) := by
  refine broadcastTo_apply b broadcasts_S1x128_S5000x128 (ix2 p q) (ix2 0 q) fun a => ?_
  match a with
  | ⟨0, _⟩ => rfl
  | ⟨1, _⟩ => rfl

/-- THE BODY'S VALUE at row `p` and column `q` of the block: the neighbourhood entry plus the row of the node block
    against the column of the weight, plus the bias at the column. -/
theorem pay_apply (x0 : Vec Ideal S5000x128 .f32) (w : Vec Ideal S128x128 .f32) (g : Vec Ideal S5000x128 .f32)
    (b : Vec Ideal S1x128 .f32) (p : Fin 5000) (q : Fin 128) :
    k1_pay1 x0 w g b (ix2 p q) = (g (ix2 p q) + ∑ d : Fin 128, x0 (ix2 p d) * w (ix2 d q)) + b (ix2 0 q) := by
  unfold k1_pay1
  rw [shapeCast_self, shapeCast_self]
  refine (addf_apply _ _ _).trans ?_
  rw [bias_apply]
  refine congrArg (· + b (ix2 0 q)) ?_
  refine (addf_apply _ _ _).trans ?_
  rw [prod_apply]
  rfl

/-! ## The blocks the body reads, as entries of the arrays -/

variable (V : (c : Dev nD) → (b : Ref sig .tc) → Buf (Elt Ideal) ((c : Thread nD τ).loc b))

/-- The printed index maps, decided once over the grid: the node block, the neighbourhood block and the output block at
    point `t` are block row `t`, column block 0; the weight and the bias row are their one block. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The node block at point `t` is rows 5000·t … 5000·t + 4999 of the node features. -/
theorem xBlk_apply (c : Dev nD) (t : Fin cfg1.N) (y : S5000x128.Idx) (i : S50000x128.Idx)
    (h0 : (i 0).val = t.val * 5000 + (y 0).val) (h1 : (i 1).val = (y 1).val) :
    (iblk1 (F := Ideal) V c 0 t : Vec Ideal S5000x128 .f32) y = (V c main_arg0 : S50000x128.Idx → EReal) i := by
  obtain ⟨e0, e1, -⟩ := idx_facts t
  unfold iblk1
  rw [View.read_apply]
  show (V c main_arg0 : S50000x128.Idx → EReal) _ = (V c main_arg0 : S50000x128.Idx → EReal) i
  refine congrArg (V c main_arg0 : S50000x128.Idx → EReal) (funext fun a => Fin.ext ?_)
  match a with
  | ⟨0, _⟩ => show win1_0.index t (0 : Fin 2) * 5000 + 1 * (y 0).val = (i 0).val; omega
  | ⟨1, _⟩ => show win1_0.index t (1 : Fin 2) * 128 + 1 * (y 1).val = (i 1).val; omega

/-- The neighbourhood block at point `t` is the same rows of the aggregated neighbourhood. -/
theorem gBlk_apply (c : Dev nD) (t : Fin cfg1.N) (y : S5000x128.Idx) (i : S50000x128.Idx)
    (h0 : (i 0).val = t.val * 5000 + (y 0).val) (h1 : (i 1).val = (y 1).val) :
    (iblk1 (F := Ideal) V c 1 t : Vec Ideal S5000x128 .f32) y = (V c main_v22 : S50000x128.Idx → EReal) i := by
  obtain ⟨-, -, e2, e3, -⟩ := idx_facts t
  unfold iblk1
  rw [View.read_apply]
  show (V c main_v22 : S50000x128.Idx → EReal) _ = (V c main_v22 : S50000x128.Idx → EReal) i
  refine congrArg (V c main_v22 : S50000x128.Idx → EReal) (funext fun a => Fin.ext ?_)
  match a with
  | ⟨0, _⟩ => show win1_1.index t (0 : Fin 2) * 5000 + 1 * (y 0).val = (i 0).val; omega
  | ⟨1, _⟩ => show win1_1.index t (1 : Fin 2) * 128 + 1 * (y 1).val = (i 1).val; omega

/-- The weight's one block is the weight. -/
theorem wBlk_apply (c : Dev nD) (t : Fin cfg1.N) (y : S128x128.Idx) :
    (iblk1 (F := Ideal) V c 2 t : Vec Ideal S128x128 .f32) y = (V c main_arg7 : S128x128.Idx → EReal) y := by
  obtain ⟨-, -, -, -, e4, e5, -⟩ := idx_facts t
  unfold iblk1
  rw [View.read_apply]
  show (V c main_arg7 : S128x128.Idx → EReal) _ = (V c main_arg7 : S128x128.Idx → EReal) y
  refine congrArg (V c main_arg7 : S128x128.Idx → EReal) (funext fun a => Fin.ext ?_)
  match a with
  | ⟨0, _⟩ => show win1_2.index t (0 : Fin 2) * 128 + 1 * (y 0).val = (y 0).val; omega
  | ⟨1, _⟩ => show win1_2.index t (1 : Fin 2) * 128 + 1 * (y 1).val = (y 1).val; omega

/-- The bias row's one block is the bias row. -/
theorem bBlk_apply (c : Dev nD) (t : Fin cfg1.N) (y : S1x128.Idx) :
    (iblk1 (F := Ideal) V c 3 t : Vec Ideal S1x128 .f32) y = (V c main_v23 : S1x128.Idx → EReal) y := by
  obtain ⟨-, -, -, -, -, -, e6, e7, -⟩ := idx_facts t
  unfold iblk1
  rw [View.read_apply]
  show (V c main_v23 : S1x128.Idx → EReal) _ = (V c main_v23 : S1x128.Idx → EReal) y
  refine congrArg (V c main_v23 : S1x128.Idx → EReal) (funext fun a => Fin.ext ?_)
  match a with
  | ⟨0, _⟩ => show win1_3.index t (0 : Fin 2) * 1 + 1 * (y 0).val = (y 0).val; omega
  | ⟨1, _⟩ => show win1_3.index t (1 : Fin 2) * 128 + 1 * (y 1).val = (y 1).val; omega

/-! ## What a point writes back -/

/-- The body's value at row `p`, column `q` of point `t`'s block is the whole-array function at row 5000·t + p,
    column `q`: each block entry read where it sits in its array. -/
theorem node_at (c : Dev nD) (t : Fin cfg1.N) (p : Fin 5000) (q : Fin 128) (i : S50000x128.Idx)
    (h0 : (i 0).val = t.val * 5000 + p.val) (h1 : (i 1).val = q.val) :
    k1_pay1 (iblk1 (F := Ideal) V c 0 t) (iblk1 V c 2 t) (iblk1 V c 1 t) (iblk1 V c 3 t) (ix2 p q)
      = Cert.Spec.nodeOut (V c main_arg0) (V c main_v22) (V c main_arg7) (V c main_v23) i := by
  obtain ⟨n, l, rfl⟩ : ∃ (n : Fin 50000) (l : Fin 128), i = ix2 n l := ⟨i 0, i 1, eq_ix2 i⟩
  have hl : l = q := Fin.ext h1
  subst hl
  refine (pay_apply (iblk1 V c 0 t) (iblk1 V c 2 t) (iblk1 V c 1 t) (iblk1 V c 3 t) p l).trans ?_
  refine Eq.trans ?_ (Cert.Spec.nodeOut_apply _ _ _ _ n l).symm
  refine congrArg₂ (· + ·) (congrArg₂ (· + ·) (gBlk_apply V c t (ix2 p l) (ix2 n l) h0 rfl)
    (Finset.sum_congr rfl fun d _ => congrArg₂ (· * ·) (xBlk_apply V c t (ix2 p d) (ix2 n d) h0 rfl) (wBlk_apply V c t (ix2 d l))))
    (bBlk_apply V c t (ix2 0 l))

/-- WHAT POINT `t` WRITES BACK is block `t` of the whole-array function of the arrays the region finds. -/
theorem flushed_node (c : Dev nD) (t : Fin cfg1.N) :
    (dat1 (F := Ideal) V c).flushed 4 t
      = ((cfg1.win 4).blk t).view.read (Elt Ideal) (Cert.Spec.nodeOut (V c main_arg0) (V c main_v22) (V c main_arg7) (V c main_v23)) := by
  show (cfg1.win 4).cut (grid1.coords t) ((dat1 V c).after 4 t) = _
  rw [after1_4]
  unfold out1_4
  rw [View.canon_unit_zero hz]
  simp only [View.ld_unit_zero (S := S5000x128) hz, View.ld_unit_zero (S := S128x128) hz, View.ld_unit_zero (S := S1x128) hz]
  obtain ⟨-, -, -, -, -, -, -, -, e8, e9⟩ := idx_facts t
  funext j
  obtain ⟨p, q, rfl⟩ : ∃ (p : Fin 5000) (q : Fin 128), j = ix2 p q := ⟨j 0, j 1, eq_ix2 (n0 := 5000) (n1 := 128) j⟩
  show k1_pay1 (iblk1 V c 0 t) (iblk1 V c 2 t) (iblk1 V c 1 t) (iblk1 V c 3 t) (ix2 p q)
    = Cert.Spec.nodeOut (V c main_arg0) (V c main_v22) (V c main_arg7) (V c main_v23) (((cfg1.win 4).blk t).view.emb (ix2 p q))
  refine node_at V c t p q _ ?_ ?_
  · show win1_4.index t (0 : Fin 2) * 5000 + 1 * p.val = t.val * 5000 + p.val
    omega
  · show win1_4.index t (1 : Fin 2) * 128 + 1 * q.val = q.val
    omega

/-! ## The blocks tile the array -/

/-- An index of the array is in point `t`'s block iff each coordinate is in the block's range on its axis. -/
theorem mem_blk (t : Fin cfg1.N) (i : S50000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v24).slice (win1_4.rect t)).set ↔ _
  rw [View.set_slice_whole, Rect.mem_set_unit]
  exact Iff.rfl

/-- Row `n` of the array lies in the block of point `n / 5000`: ten blocks of 5000 rows fill the 50000 rows, and the
    one column block has all 128 columns. -/
theorem cover (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  have hN : grid1.N = 10 := N_1
  obtain ⟨t, ht⟩ : ∃ t : Fin cfg1.N, t.val = (i 0).val / 5000 :=
    ⟨⟨(i 0).val / 5000, by show (i 0).val / 5000 < grid1.N; rw [hN]; omega⟩, rfl⟩
  obtain ⟨-, -, -, -, -, -, -, -, e8, e9⟩ := idx_facts t
  refine ⟨t, flush1_4 t, ?_⟩
  rw [mem_blk]
  intro a
  match a with
  | ⟨0, _⟩ =>
    show win1_4.index t (0 : Fin 2) * 5000 ≤ (i 0).val ∧ (i 0).val < win1_4.index t (0 : Fin 2) * 5000 + 5000
    omega
  | ⟨1, _⟩ =>
    show win1_4.index t (1 : Fin 2) * 128 ≤ (i 1).val ∧ (i 1).val < win1_4.index t (1 : Fin 2) * 128 + 128
    omega

/-! ## The array after the region -/

theorem arr_node (c : Dev nD) :
    (dat1 (F := Ideal) V c).arrAt 4 cfg1.N
      = Cert.Spec.nodeOut (V c main_arg0) (V c main_v22) (V c main_arg7) (V c main_v23) :=
  (dat1 (F := Ideal) V c).arrAt_eq_of_cover 4 (Cert.Spec.nodeOut (V c main_arg0) (V c main_v22) (V c main_arg7) (V c main_v23))
    (fun t _ => flushed_node V c t) fun i => cover i

end Cert.KernelIdeal.NodeRegion

end
-- ==== Proof.Bridge.lean ====
/- The two places where the per-block functions of the kernel meet the stages of the reference, entry by entry, on the
   extended reals. For an edge `e` and a column `l` both sides of `msg_eq` are `max ((S₁ + S₂) + bias) 0` with the same
   `S₁ = ∑ d, h[e,d] · A[d,l]` and the same bias; the second sums differ in the order of summation,
   `∑ k, f[e,k] · (∑ j, x4[k,j] · x5[128+j,l])` against `∑ j, (∑ k, f[e,k] · x4[k,j]) · x5[128+j,l]`, and agree because every
   factor is a real number (distributivity fails on the extended reals only at the infinities). `node_eq` needs no
   reassociation: both sides are `(g[n,l] + ∑ d, x[n,d] · W[d,l]) + bias[l]`. -/
import proofs.«179803_j11897059410189_1_alg».proof.Proof.Gen.ReferenceIdeal.Read
import proofs.«179803_j11897059410189_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.Bridge

open Cert.ReferenceIdeal Cert.ReferenceIdeal.Gen Cert.ReferenceIdeal.Read Idealize.ShloMosaic Idealize.ShloMosaic.ValueIdx

/-! ## Real numbers inside the extended reals -/

/-- The inclusion of the reals in the extended reals carries a finite sum to the sum of the images. -/
theorem coe_sum {ι : Type} (s : Finset ι) (r : ι → ℝ) :
    ((∑ k ∈ s, r k : ℝ) : EReal) = ∑ k ∈ s, (r k : EReal) := by
  classical
  induction s using Finset.induction_on with
  | empty => simp
  | insert a s ha ih => rw [Finset.sum_insert ha, Finset.sum_insert ha, EReal.coe_add, ih]

/-- The exchange of the two summations over real families: `∑ k, u k · (∑ j, v k j · w j) = ∑ j, (∑ k, u k · v k j) · w j`,
    read in the extended reals. Both sides are the image of one real number; in the reals it is distributivity on both
    sides, the exchange of the two sums and associativity of the product. -/
theorem sum_reassoc_real (u : Fin 64 → ℝ) (v : Fin 64 → Fin 128 → ℝ) (w : Fin 128 → ℝ) :
    ∑ k : Fin 64, (u k : EReal) * ∑ j : Fin 128, (v k j : EReal) * (w j : EReal)
      = ∑ j : Fin 128, (∑ k : Fin 64, (u k : EReal) * (v k j : EReal)) * (w j : EReal) := by
  have hreal : ∑ k : Fin 64, u k * ∑ j : Fin 128, v k j * w j = ∑ j : Fin 128, (∑ k : Fin 64, u k * v k j) * w j := by
    simp only [Finset.mul_sum, Finset.sum_mul]
    rw [Finset.sum_comm]
    exact Finset.sum_congr rfl fun j _ => Finset.sum_congr rfl fun k _ => (mul_assoc _ _ _).symm
  simp only [← EReal.coe_mul, ← coe_sum]
  exact congrArg _ hreal

/-- The same exchange for families of extended reals whose every entry is a real number. -/
theorem sum_reassoc (u : Fin 64 → EReal) (v : Fin 64 → Fin 128 → EReal) (w : Fin 128 → EReal)
    (hu : ∀ k, ∃ r : ℝ, u k = (r : EReal)) (hv : ∀ k j, ∃ r : ℝ, v k j = (r : EReal))
    (hw : ∀ j, ∃ r : ℝ, w j = (r : EReal)) :
    ∑ k : Fin 64, u k * ∑ j : Fin 128, v k j * w j = ∑ j : Fin 128, (∑ k : Fin 64, u k * v k j) * w j := by
  choose ru hu using hu
  choose rv hv using hv
  choose rw' hw using hw
  simp only [hu, hv, hw]
  exact sum_reassoc_real ru rv rw'

/-! ## The index functions of the reference's stages, at an index given by its coordinates -/

theorem lidx9_ix (e : Fin 800000) (l k : Fin 128) : lidx_main_v9 (ix2 e l) k = ix2 e k :=
  funext fun a => Fin.ext (by match a with | ⟨0, _⟩ => rfl | ⟨1, _⟩ => rfl)
theorem ridx9_ix (e : Fin 800000) (l k : Fin 128) : ridx_main_v9 (ix2 e l) k = ix2 k l :=
  funext fun a => Fin.ext (by match a with | ⟨0, _⟩ => rfl | ⟨1, _⟩ => rfl)
theorem lidx11_ix (e : Fin 800000) (l k : Fin 128) : lidx_main_v11 (ix2 e l) k = ix2 e k :=
  funext fun a => Fin.ext (by match a with | ⟨0, _⟩ => rfl | ⟨1, _⟩ => rfl)
theorem ridx11_ix (e : Fin 800000) (l k : Fin 128) : ridx_main_v11 (ix2 e l) k = ix2 k l :=
  funext fun a => Fin.ext (by match a with | ⟨0, _⟩ => rfl | ⟨1, _⟩ => rfl)
theorem lidx0_ix (e : Fin 800000) (j : Fin 128) (k : Fin 64) : lidx_main_v0 (ix2 e j) k = ix2 e k :=
  funext fun a => Fin.ext (by match a with | ⟨0, _⟩ => rfl | ⟨1, _⟩ => rfl)
theorem ridx0_ix (e : Fin 800000) (j : Fin 128) (k : Fin 64) : ridx_main_v0 (ix2 e j) k = ix2 k j :=
  funext fun a => Fin.ext (by match a with | ⟨0, _⟩ => rfl | ⟨1, _⟩ => rfl)
theorem idx13_14_ix (e : Fin 800000) (l : Fin 128) : idx_main_v13 (idx_main_v14 (ix2 e l)) = ix1 l :=
  funext fun a => Fin.ext (by match a with | ⟨0, _⟩ => rfl)
theorem lidx28_ix (n : Fin 50000) (l k : Fin 128) : lidx_main_v28 (ix2 n l) k = ix2 n k :=
  funext fun a => Fin.ext (by match a with | ⟨0, _⟩ => rfl | ⟨1, _⟩ => rfl)
theorem ridx28_ix (n : Fin 50000) (l k : Fin 128) : ridx_main_v28 (ix2 n l) k = ix2 k l :=
  funext fun a => Fin.ext (by match a with | ⟨0, _⟩ => rfl | ⟨1, _⟩ => rfl)
theorem idx30_31_ix (n : Fin 50000) (l : Fin 128) : idx_main_v30 (idx_main_v31 (ix2 n l)) = ix1 l :=
  funext fun a => Fin.ext (by match a with | ⟨0, _⟩ => rfl)

theorem msg_eq (x0 : FVec Ideal S50000x128 .f32) (x1 : FVec Ideal S800000x64 .f32) (x2 : IVec S800000 32)
    (x4 : FVec Ideal S64x128 .f32) (x5 : FVec Ideal S256x128 .f32) (x6 : FVec Ideal S128 .f32)
    (B : S64x128.Idx → EReal) (b : S1x128.Idx → EReal)
    (h1 : ∀ i, ∃ r : ℝ, (x1 i : EReal) = (r : EReal)) (h4 : ∀ i, ∃ r : ℝ, (x4 i : EReal) = (r : EReal))
    (h5 : ∀ i, ∃ r : ℝ, (x5 i : EReal) = (r : EReal))
    (hB : ∀ (k : Fin 64) (l : Fin 128), B (ix2 k l) = ∑ j : Fin 128, x4 (ix2 k j) * val_main_v10 (F := Ideal) x5 (ix2 j l))
    (hb : ∀ l : Fin 128, b (ix2 0 l) = x6 (ix1 l)) :
    Cert.Spec.edgeMsg (val_main_v7 (F := Ideal) x0 x2) x1 (val_main_v8 (F := Ideal) x5) B b
      = val_main_v16 (F := Ideal) x0 x1 x2 x4 x5 x6 := by
  funext i
  obtain ⟨e, l, rfl⟩ : ∃ (e : Fin 800000) (l : Fin 128), i = ix2 e l := ⟨i 0, i 1, eq_ix2 i⟩
  -- the reference's stage at the index, one operation at a time
  rw [Cert.Spec.edgeMsg_apply, val_main_v16_apply, val_main_v15_apply, val_main_v12_apply, val_main_v9_apply,
    val_main_v11_apply, val_main_v14_apply, val_main_v13_apply, val_main_call0_v0_apply, val_main_call0_cst_apply]
  simp only [Ideal.maximumf_def, Ideal.addf_def, Ideal.ofBits_def, Ideal.ofBits_zero_f32, idx13_14_ix, hb, hB,
    lidx9_ix, ridx9_ix, lidx11_ix, ridx11_ix, val_main_v0_apply, lidx0_ix, ridx0_ix]
  -- what is left is the exchange of the two summations in the second sum; every factor is a real number
  have key : ∑ k : Fin 64, x1 (ix2 e k) * ∑ j : Fin 128, x4 (ix2 k j) * val_main_v10 (F := Ideal) x5 (ix2 j l)
      = ∑ j : Fin 128, (∑ k : Fin 64, x1 (ix2 e k) * x4 (ix2 k j)) * val_main_v10 (F := Ideal) x5 (ix2 j l) :=
    sum_reassoc (fun k => x1 (ix2 e k)) (fun k j => x4 (ix2 k j)) (fun j => val_main_v10 (F := Ideal) x5 (ix2 j l))
      (fun k => h1 _) (fun k j => h4 _) (fun j => by rw [val_main_v10_apply]; exact h5 _)
  rw [key]

theorem node_eq (x0 : FVec Ideal S50000x128 .f32) (g : FVec Ideal S50000x128 .f32) (x7 : FVec Ideal S128x128 .f32)
    (x8 : FVec Ideal S128 .f32) (b : S1x128.Idx → EReal) (hb : ∀ l : Fin 128, b (ix2 0 l) = x8 (ix1 l)) :
    Cert.Spec.nodeOut x0 g x7 b = addf (addf g (val_main_v28 (F := Ideal) x0 x7)) (val_main_v31 (F := Ideal) x8) := by
  funext i
  obtain ⟨n, l, rfl⟩ : ∃ (n : Fin 50000) (l : Fin 128), i = ix2 n l := ⟨i 0, i 1, eq_ix2 i⟩
  rw [Cert.Spec.nodeOut_apply, addf_apply, addf_apply, val_main_v28_apply, val_main_v31_apply, val_main_v30_apply,
    idx30_31_ix, hb]
  simp only [lidx28_ix, ridx28_ix]

end Cert.Bridge

end
-- ==== Proof.Finite.lean ====
/-
  Finiteness of the float inputs. The precondition is a conjunction, by `and` on one-bit words, of nine
  statements "all entries of |x| are below +∞", one per float array. A conjunction that is 1 has both
  conjuncts 1; an `and`-reduction over all axes that is 1 had a 1 at every entry; and an entry of an
  extended-real array with max(x, -x) < ⊤ is neither ⊤ nor ⊥, hence a real number.
-/
import proofs.«179803_j11897059410189_1_alg».proof.Pre_finite_inputs
import Idealize.ShloMosaic.PureOps.Ideal
import Idealize.ShloMosaic.Lib.ReduceAll
import Idealize.ShloMosaic.Lib.ValueIdx

noncomputable section

namespace Cert.Finite

open Idealize.ShloMosaic Cert.Pre_finite_inputs

/-- The rank-0 shape has exactly one index. -/
instance subsingleton_scalar_idx : Subsingleton S_.Idx := ⟨fun a b => funext fun d => d.elim0⟩

/-- The f32 pattern 0x7F800000 denotes +∞. -/
theorem ofBits_inf : Ideal.ofBits .f32 0x7F800000#32 = (⊤ : EReal) := by
  simp [Ideal.ofBits, Ideal.ieee]

/-- An extended real whose absolute value max(v, -v) is strictly below ⊤ is a real number:
    ⊤ fails on the left of the max, ⊥ on the right (its negation is ⊤). -/
theorem real_of_abs_lt_top (v : EReal) (hv : max v (-v) < ⊤) : ∃ r : ℝ, v = (r : EReal) := by
  induction v using EReal.rec with
  | bot => simp at hv
  | coe r => exact ⟨r, rfl⟩
  | top => simp at hv

/-- One statement "all entries of |x| are below +∞" read back, over any shape: if the `and`-reduction over all axes of the
    entrywise comparison of |x| with the broadcast +∞ is 1, then every entry of x is a real number. -/
theorem reals_of_all_lt_inf {s : Shape} {axes : List (Fin s.rank)} (x : FVec Ideal s .f32)
    (hb : S_.BroadcastsInDim s (![] : Fin 0 → Fin s.rank)) (hr : s.ReducesTo axes S_) (hS : 0 < S_.numel)
    (e : Host.reduce IntOp.andi
          (cmpf .olt (Host.absf x) (broadcastInDim s ![] hb (constant S_ .f32 0x7F800000#32)))
          (constantI S_ 1 1#1) hr hS ValueIdx.ix0 = 1#1) :
    ∀ i, ∃ r : ℝ, (x i : EReal) = (r : EReal) := by
  intro i
  -- the entry of the compared array at i is 1
  have hi := Host.reduce_andi_all _ _ hr hS ValueIdx.ix0 e i
  -- that entry is the order comparison max(x i, -(x i)) < +∞
  have hi' : Ideal.cmp .olt (max (x i : EReal) (-(x i : EReal))) (Ideal.ofBits .f32 0x7F800000#32) = 1#1 := hi
  rw [ofBits_inf] at hi'
  have hlt : max (x i : EReal) (-(x i : EReal)) < ⊤ := by
    by_contra hn
    simp [Ideal.cmp, hn] at hi'
  exact real_of_abs_lt_top _ hlt

theorem reals_of_fn [Cert.Pre_finite_inputs.Facts]
    (a0 : FVec Ideal S50000x128 .f32) (a1 : FVec Ideal S800000x64 .f32) (a2 a3 : IVec S800000 32)
    (a4 : FVec Ideal S64x128 .f32) (a5 : FVec Ideal S256x128 .f32) (a6 : FVec Ideal S128 .f32)
    (a7 : FVec Ideal S128x128 .f32) (a8 : FVec Ideal S128 .f32)
    (h : Cert.Pre_finite_inputs.fn (F := Ideal) a0 a1 a2 a3 a4 a5 a6 a7 a8 = fun _ => 1#1) :
    (∀ i, ∃ r : ℝ, (a1 i : EReal) = (r : EReal)) ∧ (∀ i, ∃ r : ℝ, (a4 i : EReal) = (r : EReal))
      ∧ (∀ i, ∃ r : ℝ, (a5 i : EReal) = (r : EReal)) := by
  have h0 := congrFun h ValueIdx.ix0
  dsimp only [Cert.Pre_finite_inputs.fn, Cert.Pre_finite_inputs.fn_part1, andi] at h0
  -- the conjunction is nested to the left: peel the last three conjuncts (a8, a7, a6), then a5, a4, a1
  obtain ⟨h6, _⟩ := IntOp.andi_eq_one.1 h0
  obtain ⟨h5, _⟩ := IntOp.andi_eq_one.1 h6
  obtain ⟨h4, _⟩ := IntOp.andi_eq_one.1 h5
  obtain ⟨h3, e5⟩ := IntOp.andi_eq_one.1 h4
  obtain ⟨h2, e4⟩ := IntOp.andi_eq_one.1 h3
  obtain ⟨_, e1⟩ := IntOp.andi_eq_one.1 h2
  exact ⟨reals_of_all_lt_inf a1 _ _ _ e1, reals_of_all_lt_inf a4 _ _ _ e4, reals_of_all_lt_inf a5 _ _ _ e5⟩

end Cert.Finite

end
-- ==== Proof.KernelValue.lean ====
/-
  The result array of the kernel program, as the reference's last stage of the launch arguments.

  The run leaves in the result buffer what region 1's write-backs leave: block by block,
  (g + x·W) + bias, with `x` the node features, `W` the self weight and `g` the aggregation by destination node of what
  region 0 wrote: block by block, max((h·A + f·B) + bias, 0) with `h` the gathered source rows, `A` the upper half of
  the stacked weight, `f` the edge features and `B` the edge weight times the lower half. The reference multiplies
  `f` by the edge weight first and the product by the lower half afterwards: the same number where the three factors'
  entries are real, which the precondition gives. Everything else — the gather, the scatter-adds, the division — is the
  same host term on both sides and is never opened.
-/
import proofs.«179803_j11897059410189_1_alg».proof.Defs
import proofs.«179803_j11897059410189_1_alg».proof.Proof.Gen.Pre_finite_inputs
import proofs.«179803_j11897059410189_1_alg».proof.Proof.HostReads
import proofs.«179803_j11897059410189_1_alg».proof.Proof.EdgeRegion
import proofs.«179803_j11897059410189_1_alg».proof.Proof.NodeRegion
import proofs.«179803_j11897059410189_1_alg».proof.Proof.Bridge
import proofs.«179803_j11897059410189_1_alg».proof.Proof.Finite

set_option maxRecDepth 16384

noncomputable section

namespace Cert.KernelValue

open Cert.KernelIdeal Cert.KernelIdeal.Gen Cert.KernelIdeal.HostReads Idealize.ShloMosaic Idealize.ShloMosaic.TcCoe Idealize.SL.Sem
open Idealize.ShloMosaic.ValueIdx
open Cert.ReferenceIdeal.Read (val_main_v7 val_main_v8 val_main_v10 val_main_v16 val_main_v27 val_main_v28 val_main_v31 val_main_v32)

/-! ## The folded edge weight at an entry: a sum over the contracted coordinate -/

theorem lhs_fold_0 (i : S64x128.Idx) (q : dot_S64x128_S128x128_S64x128_1_0_0_1_n_n.contr.Idx) :
    (dot_S64x128_S128x128_S64x128_1_0_0_1_n_n.lhsIdx i q 0).val = (i 0).val := by
  unfold DotDims.lhsIdx
  rw [dif_neg (show ¬(0 : Fin S64x128.rank) ∈ dot_S64x128_S128x128_S64x128_1_0_0_1_n_n.lhsBatch by decide), dif_pos (show (0 : Fin S64x128.rank) ∈ dot_S64x128_S128x128_S64x128_1_0_0_1_n_n.lhsNonContracting by decide)]
  rfl
theorem lhs_fold_1 (i : S64x128.Idx) (q : dot_S64x128_S128x128_S64x128_1_0_0_1_n_n.contr.Idx) :
    (dot_S64x128_S128x128_S64x128_1_0_0_1_n_n.lhsIdx i q 1).val = (q ⟨0, by decide⟩).val :=
  dot_S64x128_S128x128_S64x128_1_0_0_1_n_n.lhsIdx_val_of_single rfl i q
theorem rhs_fold_0 (i : S64x128.Idx) (q : dot_S64x128_S128x128_S64x128_1_0_0_1_n_n.contr.Idx) :
    (dot_S64x128_S128x128_S64x128_1_0_0_1_n_n.rhsIdx i q 0).val = (q ⟨0, by decide⟩).val :=
  dot_S64x128_S128x128_S64x128_1_0_0_1_n_n.rhsIdx_val_of_single rfl i q
theorem rhs_fold_1 (i : S64x128.Idx) (q : dot_S64x128_S128x128_S64x128_1_0_0_1_n_n.contr.Idx) :
    (dot_S64x128_S128x128_S64x128_1_0_0_1_n_n.rhsIdx i q 1).val = (i 1).val := by
  unfold DotDims.rhsIdx
  rw [dif_neg (show ¬(1 : Fin S128x128.rank) ∈ dot_S64x128_S128x128_S64x128_1_0_0_1_n_n.rhsBatch by decide), dif_pos (show (1 : Fin S128x128.rank) ∈ dot_S64x128_S128x128_S64x128_1_0_0_1_n_n.rhsNonContracting by decide)]
  rfl

/-- Entry (k, l) of the edge weight times a [128,128] matrix: the sum over j of W[k,j]·Y[j,l]. -/
theorem folded_apply (x4 : FVec Ideal S64x128 .f32) (y : FVec Ideal S128x128 .f32) (k : Fin 64) (l : Fin 128) :
    Host.dotGeneral dot_S64x128_S128x128_S64x128_1_0_0_1_n_n none x4 y (ix2 k l)
      = ∑ j : Fin 128, x4 (ix2 k j) * y (ix2 j l) := by
  simp only [Host.dotGeneral]
  rw [Ideal.dotGeneral_apply, ← Equiv.sum_comp (ValueIdx.contrEquiv1 dot_S64x128_S128x128_S64x128_1_0_0_1_n_n 128 rfl rfl).symm]
  refine Finset.sum_congr rfl fun j _ => ?_
  have hj := ValueIdx.contrEquiv1_symm_val dot_S64x128_S128x128_S64x128_1_0_0_1_n_n 128 rfl rfl j
  have el : dot_S64x128_S128x128_S64x128_1_0_0_1_n_n.lhsIdx (ix2 k l) ((ValueIdx.contrEquiv1 dot_S64x128_S128x128_S64x128_1_0_0_1_n_n 128 rfl rfl).symm j) = ix2 k j := funext fun a => Fin.ext (by
    match a with
    | ⟨0, _⟩ => exact lhs_fold_0 _ _
    | ⟨1, _⟩ => exact (lhs_fold_1 _ _).trans hj)
  have er : dot_S64x128_S128x128_S64x128_1_0_0_1_n_n.rhsIdx (ix2 k l) ((ValueIdx.contrEquiv1 dot_S64x128_S128x128_S64x128_1_0_0_1_n_n 128 rfl rfl).symm j) = ix2 j l := funext fun a => Fin.ext (by
    match a with
    | ⟨0, _⟩ => exact (rhs_fold_0 _ _).trans hj
    | ⟨1, _⟩ => exact rhs_fold_1 _ _)
  rw [el, er]

/-- A bias vector laid out as one row, read at (0, l), is its entry l. -/
theorem bias_row (x : FVec Ideal S128 .f32) (l : Fin 128) :
    shapeCast S1x128 x shapeCasts_S128_S1x128 (ix2 0 l) = x (ix1 l) :=
  (shapeCast_addUnit_apply (n := 1) ![128] x shapeCasts_S128_S1x128 (ix2 0 l)).trans
    (congrArg x (funext fun a => by match a with | ⟨0, _⟩ => rfl))

/-! ## The result array -/

/-- The kernel program's composed value — region 1's function of the aggregation of region 0's function of the host terms
    — is the reference's last stage, for arrays whose edge features and two edge-side weights have real entries. -/
theorem value_eq (x0 : FVec Ideal S50000x128 .f32) (x1 : FVec Ideal S800000x64 .f32) (x2 x3 : IVec S800000 32)
    (x4 : FVec Ideal S64x128 .f32) (x5 : FVec Ideal S256x128 .f32) (x6 : FVec Ideal S128 .f32)
    (x7 : FVec Ideal S128x128 .f32) (x8 : FVec Ideal S128 .f32)
    (h1 : ∀ i, ∃ r : ℝ, (x1 i : EReal) = (r : EReal)) (h4 : ∀ i, ∃ r : ℝ, (x4 i : EReal) = (r : EReal))
    (h5 : ∀ i, ∃ r : ℝ, (x5 i : EReal) = (r : EReal)) :
    Cert.Spec.nodeOut x0
        (aggr (F := Ideal) x3 (Cert.Spec.edgeMsg
          (Host.gather gather_S50000x128_S800000x1_S800000x128_1_0_n_n_0_1_1128 x0 (srcIdx x2)) x1
          (extractStridedSlice S128x128 ![0, 0] x5 slices_S256x128_S128x128_0_0)
          (Host.dotGeneral dot_S64x128_S128x128_S64x128_1_0_0_1_n_n none x4
            (extractStridedSlice S128x128 ![128, 0] x5 slices_S256x128_S128x128_128_0))
          (shapeCast S1x128 x6 shapeCasts_S128_S1x128)))
        x7 (shapeCast S1x128 x8 shapeCasts_S128_S1x128)
      = val_main_v32 (F := Ideal) x0 x1 x2 x3 x4 x5 x6 x7 x8 := by
  -- the edge messages are the reference's, the folded weight against the two products in turn
  have hmsg : Cert.Spec.edgeMsg
        (Host.gather gather_S50000x128_S800000x1_S800000x128_1_0_n_n_0_1_1128 x0 (srcIdx x2)) x1
        (extractStridedSlice S128x128 ![0, 0] x5 slices_S256x128_S128x128_0_0)
        (Host.dotGeneral dot_S64x128_S128x128_S64x128_1_0_0_1_n_n none x4
          (extractStridedSlice S128x128 ![128, 0] x5 slices_S256x128_S128x128_128_0))
        (shapeCast S1x128 x6 shapeCasts_S128_S1x128)
      = val_main_v16 (F := Ideal) x0 x1 x2 x4 x5 x6 :=
    Cert.Bridge.msg_eq x0 x1 x2 x4 x5 x6 _ _ h1 h4 h5 (fun k l => folded_apply x4 _ k l) (fun l => bias_row x6 l)
  rw [hmsg]
  -- the aggregation is the same host term on both sides; the node output is the reference's last two additions
  exact Cert.Bridge.node_eq x0 (aggr (F := Ideal) x3 (val_main_v16 (F := Ideal) x0 x1 x2 x4 x5 x6)) x7 x8 _ (fun l => bias_row x8 l)

variable (m : (ℓ : Loc nD τ sig) → Buf (Elt Ideal) ℓ) (ρ : Dev nD → PrngReg)

/-- Under the precondition the last boundary's contents at the result buffer are the reference's last stage of the launch
    arguments: the buffer holds what region 1 leaves, whose operands are the host terms of the arguments. -/
theorem result_eq (hpre : Cert.Pre_KernelIdeal m) (c : Dev nD) :
    W4 m ρ c (Proc.devRef .tc main_v24)
      = val_main_v32 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) := by
  obtain ⟨h1, h4, h5⟩ := Cert.Finite.reals_of_fn _ _ _ _ _ _ _ _ _ (hpre c)
  rw [show W4 m ρ c (Proc.devRef .tc main_v24) = (dat1 (V3 m ρ) c).arrAt 4 cfg1.N from W4_arr m ρ c 4,
    Cert.KernelIdeal.NodeRegion.arr_node (V3 m ρ) c, entry1_nodes, entry1_self, entry1_bias, entry1_neigh,
    Cert.KernelIdeal.EdgeRegion.arr_edge (V1 m ρ) c, entry0_src, entry0_feat, entry0_upper, entry0_folded, entry0_bias]
  exact value_eq _ _ _ _ _ _ _ _ _ h1 h4 h5

end Cert.KernelValue

end
-- ==== Proof.lean ====
/-
  The certificate of a relational graph convolution: per-edge messages, their mean by destination node, the node's own
  transform.

  The kernel program gathers the source rows on the host, computes the messages in one blocked kernel with the edge
  weight already multiplied into the lower half of the stacked weight, aggregates on the host (scatter-add, count,
  divide) and adds the node's own transform and bias in a second blocked kernel. The reference does the same with host
  operations only, multiplying the edge features by the edge weight first. On the extended reals the two agree where the
  edge features and the two weights have real entries (the exchange of two finite sums needs distributivity), which is
  the precondition; changes of float format are the identity there and a product into a zero accumulator is the plain
  sum. The three frames: the two kernel programs' from the generated frame certificate, the reference's from its
  generated run; no rewrite was applied by the ideal pass, so there is nothing to preserve.
-/
import proofs.«179803_j11897059410189_1_alg».proof.Defs
import proofs.«179803_j11897059410189_1_alg».proof.Proof.Gen.Kernel
import proofs.«179803_j11897059410189_1_alg».proof.Proof.Gen.Kernel.Frame
import proofs.«179803_j11897059410189_1_alg».proof.Proof.Gen.KernelIdeal
import proofs.«179803_j11897059410189_1_alg».proof.Proof.Gen.KernelIdeal.Frame
import proofs.«179803_j11897059410189_1_alg».proof.Proof.Gen.ReferenceIdeal
import proofs.«179803_j11897059410189_1_alg».proof.Proof.Gen.ReferenceIdeal.Run
import proofs.«179803_j11897059410189_1_alg».proof.Proof.Gen.ReferenceIdeal.Read
import proofs.«179803_j11897059410189_1_alg».proof.Proof.Gen.Pre_finite_inputs
import proofs.«179803_j11897059410189_1_alg».proof.Proof.KernelRun
import proofs.«179803_j11897059410189_1_alg».proof.Proof.KernelValue

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the reference's last stage of the (agreeing) arguments in their result arrays. -/
theorem algebraic : Cert.algebraic_KernelIdeal_ReferenceIdeal := by
  intro m ρ m' ρ' hpre hagree
  refine ⟨fun c => Cert.ReferenceIdeal.Read.val_main_v32 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelValue.result_eq m ρ hpre c), (h c).2⟩)
      (Cert.KernelIdeal.Run.run_result (F := Ideal) m ρ)
  · refine (θ_run Cert.ReferenceIdeal.defs _ _).mono (fun _ h c => ⟨?_, (h c).2⟩)
      (Cert.ReferenceIdeal.Value.run (F := Ideal) m' ρ')
    obtain ⟨e0, e1, e2, e3, e4, e5, e6, e7, e8⟩ := hagree c
    rw [(h c).1, Cert.ReferenceIdeal.Read.val_main_v32_eq, e0, e1, e2, e3, e4, e5, e6, e7, e8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
